-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S600000 32) (main_arg2 : IVec S600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 63
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S_, .f32⟩
  | .hbm, ⟨50, _⟩ => ⟨S600000, .f32⟩
  | .hbm, ⟨51, _⟩ => ⟨S_, .f32⟩
  | .hbm, ⟨52, _⟩ => ⟨S50000, .f32⟩
  | .hbm, ⟨53, _⟩ => ⟨S600000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S_, .f32⟩
  | .hbm, ⟨53, _⟩ => ⟨S50000x128, .f32⟩
  | .hbm, ⟨54, _⟩ => ⟨S600000x1, .i32⟩
  | .hbm, ⟨55, _⟩ => ⟨S50000x128, .f32⟩
  | .hbm, ⟨56, _⟩ => ⟨S_, .f32⟩
  | .hbm, ⟨57, _⟩ => ⟨S600000, .f32⟩
  | .hbm, ⟨58, _⟩ => ⟨S_, .f32⟩
  | .hbm, ⟨59, _⟩ => ⟨S50000, .f32⟩
  | .hbm, ⟨60, _⟩ => ⟨S600000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageSpec.lean ====
/-
  A two-layer mean-aggregation graph network over 50000 nodes with 128 features, as ONE function of its nine inputs.
  A layer takes node features `x`, replaces each node's neighbourhood by the mean of the features arriving along its
  incoming edges (`meanNeigh`: gather the source rows, add them up per destination, divide by the in-degree, a degree of
  zero counted as one), and combines `x · W_self + mean · W_neigh + b` (`affine`). Between the two layers the negative
  entries are cut to zero (`relu0`). The aggregation is carried as one function and never opened: both programs apply
  the same one. What IS opened is the combination, read at a node `r` and a feature `q` as
  `(∑ k, x[r,k] · W_self[k,q] + ∑ k, mean[r,k] · W_neigh[k,q]) + b[q]` (`affineAt`, `affine_apply`), the form in
  which a row block of it can be compared with what a tile of a blocked matrix unit computes.
-/
import proofs.«163017_j13615046328531_1_alg».proof.Proof.Gen.ReferenceIdeal.Read

noncomputable section

namespace Cert.Sage

open Cert.ReferenceIdeal Cert.ReferenceIdeal.Gen Idealize.ShloMosaic Idealize.ShloMosaic.TcCoe Idealize.ShloMosaic.ValueIdx

variable {F : FTy → Type} [FloatOps F]

/-- The mean of the features arriving at each node: row `e` of the gathered array is `x`'s row `src[e]` (a negative
    row number wrapped once by the node count), the rows are summed into row `dst[e]` of a zero array, and each node's
    sum is divided by its in-degree (the same scatter of ones), a degree below one raised to one. -/
def meanNeigh (x : (⟨S50000x128, .f32⟩ : BufTy).Contents (Elt F)) (src dst : (⟨S600000, .i32⟩ : BufTy).Contents (Elt F)) :
    (⟨S50000x128, .f32⟩ : BufTy).Contents (Elt F) :=
  Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 dst) (Host.gather gather_S50000x128_S600000x1_S600000x128_1_0_n_n_0_1_1128 x (broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)))) (broadcastInDim S50000x128 ![0, 1] bcast_S50000x1_S50000x128_0_1 (broadcastInDim S50000x1 ![0] bcast_S50000_S50000x1_0 (maximumf (Host.scatterAdd scatter_S50000_S600000x1_S600000_n_0_0_1 (broadcastInDim S50000 ![] bcast_S_S50000 (constant S_ .f32 0x00000000#32)) (broadcastInDim S600000x1 ![0] bcast_S600000_S600000x1_0 dst) (broadcastInDim S600000 ![] bcast_S_S600000 (constant S_ .f32 0x3F800000#32))) (broadcastInDim S50000 ![] bcast_S_S50000 (constant S_ .f32 0x3F800000#32)))))

/-- One layer's combination: `x · ws + nb · wn`, plus the bias `b` on every row. -/
def affine (x nb : (⟨S50000x128, .f32⟩ : BufTy).Contents (Elt F)) (ws wn : (⟨S128x128, .f32⟩ : BufTy).Contents (Elt F))
    (b : (⟨S128, .f32⟩ : BufTy).Contents (Elt F)) : (⟨S50000x128, .f32⟩ : BufTy).Contents (Elt F) :=
  addf (addf (Host.dotGeneral dot_S50000x128_S128x128_S50000x128_1_0_0_1_n_n none x ws) (Host.dotGeneral dot_S50000x128_S128x128_S50000x128_1_0_0_1_n_n none nb wn)) (broadcastInDim S50000x128 ![0, 1] bcast_S1x128_S50000x128_0_1 (broadcastInDim S1x128 ![1] bcast_S128_S1x128_1 b))

/-- Negative entries cut to zero. -/
def relu0 (y : (⟨S50000x128, .f32⟩ : BufTy).Contents (Elt F)) : (⟨S50000x128, .f32⟩ : BufTy).Contents (Elt F) :=
  maximumf y (broadcastInDim S50000x128 ![] bcast_S_S50000x128 (constant S_ .f32 0x00000000#32))

/-- The hidden features: the first layer, cut at zero. -/
def hidden (h : (⟨S50000x128, .f32⟩ : BufTy).Contents (Elt F)) (src dst : (⟨S600000, .i32⟩ : BufTy).Contents (Elt F))
    (ws0 wn0 : (⟨S128x128, .f32⟩ : BufTy).Contents (Elt F)) (b0 : (⟨S128, .f32⟩ : BufTy).Contents (Elt F)) :
    (⟨S50000x128, .f32⟩ : BufTy).Contents (Elt F) :=
  relu0 (affine h (meanNeigh h src dst) ws0 wn0 b0)

/-- The network: the second layer of the hidden features, over the same edges. -/
def twoLayer (h : (⟨S50000x128, .f32⟩ : BufTy).Contents (Elt F)) (src dst : (⟨S600000, .i32⟩ : BufTy).Contents (Elt F))
    (ws0 wn0 : (⟨S128x128, .f32⟩ : BufTy).Contents (Elt F)) (b0 : (⟨S128, .f32⟩ : BufTy).Contents (Elt F))
    (ws1 wn1 : (⟨S128x128, .f32⟩ : BufTy).Contents (Elt F)) (b1 : (⟨S128, .f32⟩ : BufTy).Contents (Elt F)) :
    (⟨S50000x128, .f32⟩ : BufTy).Contents (Elt F) :=
  affine (hidden h src dst ws0 wn0 b0) (meanNeigh (hidden h src dst ws0 wn0 b0) src dst) ws1 wn1 b1

/-- The host program's result term is the network of its nine arguments: the same operations in the same order. -/
theorem reference_eq (m : (ℓ : Loc nD τ sig) → Buf (Elt F) ℓ) (c : Dev nD) :
    Cert.ReferenceIdeal.Value.res_main_v50 m c
      = twoLayer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v50 twoLayer hidden relu0 affine meanNeigh
  rfl

/-! ## The combination read at a node and a feature -/

/-- Row `r`, column `k` of a node array, `r` the row of `i`. -/
abbrev rowAt (i : S50000x128.Idx) (k : Fin 128) : S50000x128.Idx := fun a => match a with
  | ⟨0, _⟩ => ⟨(i 0).val, (i 0).isLt⟩
  | ⟨1, _⟩ => ⟨k.val, k.isLt⟩
/-- Row `k`, column `q` of a weight matrix, `q` the column of `i`. -/
abbrev colAt (i : S50000x128.Idx) (k : Fin 128) : S128x128.Idx := fun a => match a with
  | ⟨0, _⟩ => ⟨k.val, k.isLt⟩
  | ⟨1, _⟩ => ⟨(i 1).val, (i 1).isLt⟩
/-- Entry `q` of a bias vector, `q` the column of `i`. -/
abbrev biasAt (i : S50000x128.Idx) : S128.Idx := fun a => match a with
  | ⟨0, _⟩ => ⟨(i 1).val, (i 1).isLt⟩

/-- `(∑ k, x[r,k] · ws[k,q] + ∑ k, nb[r,k] · wn[k,q]) + brow q` at `i = (r, q)`, over extended reals. -/
def affineAt (x nb : S50000x128.Idx → EReal) (ws wn : S128x128.Idx → EReal) (brow : S50000x128.Idx → EReal) (i : S50000x128.Idx) : EReal :=
  ((∑ k : Fin 128, x (rowAt i k) * ws (colAt i k)) + ∑ k : Fin 128, nb (rowAt i k) * wn (colAt i k)) + brow i

/-- The layer's combination at an index: the two matrix products as sums over the 128 input features. -/
theorem affine_apply (x nb : (⟨S50000x128, .f32⟩ : BufTy).Contents (Elt Ideal)) (ws wn : (⟨S128x128, .f32⟩ : BufTy).Contents (Elt Ideal))
    (b : (⟨S128, .f32⟩ : BufTy).Contents (Elt Ideal)) (i : S50000x128.Idx) :
    affine (F := Ideal) x nb ws wn b i = affineAt x nb ws wn (fun i => b (biasAt i)) i := by
  have e1 := Cert.ReferenceIdeal.Read.val_main_v19_apply x ws i
  have e2 := Cert.ReferenceIdeal.Read.val_main_v19_apply nb wn i
  have e3 : broadcastInDim S50000x128 ![0, 1] bcast_S1x128_S50000x128_0_1 (broadcastInDim S1x128 ![1] bcast_S128_S1x128_1 b) i = b (biasAt i) :=
    ((Cert.ReferenceIdeal.Read.val_main_v23_apply (F := Ideal) b i).trans (Cert.ReferenceIdeal.Read.val_main_v22_apply (F := Ideal) b _))
  unfold Cert.ReferenceIdeal.Read.val_main_v19 at e1 e2
  unfold affine affineAt
  rw [addf_apply, addf_apply, e1, e2, e3]
  rfl

end Cert.Sage

end
-- ==== Proof.SageHost.lean ====
/-
  What the two blocked combinations find in their input arrays. Before the first, the host program computes the
  neighbourhood means of the input features and lays the first bias out as a single row; the features and the first
  layer's weights are as launched. Between the two regions it computes the neighbourhood means of the first region's
  output over the same edges and lays out the second bias; the second layer's weights are as launched, and the first
  region's output is untouched.
-/
import proofs.«163017_j13615046328531_1_alg».proof.Proof.Gen.KernelIdeal.Frame
import proofs.«163017_j13615046328531_1_alg».proof.Proof.SageSpec

noncomputable section

namespace Cert.SageHost

open Cert.KernelIdeal Cert.KernelIdeal.Gen Idealize.ShloMosaic Idealize.ShloMosaic.TcCoe Idealize.SL.Sem Idealize.ShloMosaic.StableHlo

/-- The mean aggregation as the blocked program's host operations spell it (its own shape and dimension-number
    records; the operations and their order are those of `Cert.Sage.meanNeigh`). -/
def meanNeighK {F : FTy → Type} [FloatOps F] (x : (⟨S50000x128, .f32⟩ : BufTy).Contents (Elt F)) (src dst : (⟨S600000, .i32⟩ : BufTy).Contents (Elt F)) :
    (⟨S50000x128, .f32⟩ : BufTy).Contents (Elt F) :=
  Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 dst) (Host.gather gather_S50000x128_S600000x1_S600000x128_1_0_n_n_0_1_1128 x (broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)))) (broadcastInDim S50000x128 ![0, 1] bcast_S50000x1_S50000x128_0_1 (broadcastInDim S50000x1 ![0] bcast_S50000_S50000x1_0 (maximumf (Host.scatterAdd scatter_S50000_S600000x1_S600000_n_0_0_1 (broadcastInDim S50000 ![] bcast_S_S50000 (constant S_ .f32 0x00000000#32)) (broadcastInDim S600000x1 ![0] bcast_S600000_S600000x1_0 dst) (broadcastInDim S600000 ![] bcast_S_S600000 (constant S_ .f32 0x3F800000#32))) (broadcastInDim S50000 ![] bcast_S_S50000 (constant S_ .f32 0x3F800000#32)))))

variable (m : (ℓ : Loc nD τ sig) → Buf (Elt Ideal) ℓ) (ρ : Dev nD → PrngReg)

/-! ## The first region's entry -/

theorem entry0_feat (c : Dev nD) : V1 m ρ c main_arg0 = m ((c : Thread nD τ).loc main_arg0) := by
  show StableHlo.after hostOps0 (W0 m ρ c) (Proc.devRef .tc main_arg0) = _
  after_results

theorem entry0_wself (c : Dev nD) : V1 m ρ c main_arg3 = m ((c : Thread nD τ).loc main_arg3) := by
  show StableHlo.after hostOps0 (W0 m ρ c) (Proc.devRef .tc main_arg3) = _
  after_results

theorem entry0_wneigh (c : Dev nD) : V1 m ρ c main_arg4 = m ((c : Thread nD τ).loc main_arg4) := by
  show StableHlo.after hostOps0 (W0 m ρ c) (Proc.devRef .tc main_arg4) = _
  after_results

set_option maxHeartbeats 8000000 in
/-- The means the first region reads are the aggregation of the launched features over the launched edges. -/
theorem entry0_meanK (c : Dev nD) :
    V1 m ρ c main_v18 = meanNeighK (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

set_option maxHeartbeats 8000000 in
/-- The bias row the first region reads is the launched bias vector laid out as one row. -/
theorem entry0_bias (c : Dev nD) :
    V1 m ρ c main_v19 = shapeCast S1x128 (m ((c : Thread nD τ).loc main_arg5)) shapeCasts_S128_S1x128 := by
  show StableHlo.after hostOps0 (W0 m ρ c) (Proc.devRef .tc main_v19) = _
  after_results
  rfl

/-- The two spellings of the mean aggregation are one function: the same operations in the same order, over records
    that hold the same dimension numbers. -/
theorem meanNeighK_eq {F : FTy → Type} [FloatOps F] (x : (⟨S50000x128, .f32⟩ : BufTy).Contents (Elt F)) (src dst : (⟨S600000, .i32⟩ : BufTy).Contents (Elt F)) :
    meanNeighK x src dst = Cert.Sage.meanNeigh x src dst := by
  unfold meanNeighK Cert.Sage.meanNeigh
  rfl

/-- The means the first region reads, in the specification's spelling. -/
theorem entry0_mean (c : Dev nD) :
    V1 m ρ c main_v18 = Cert.Sage.meanNeigh (m ((c : Thread nD τ).loc main_arg0)) (m ((c : Thread nD τ).loc main_arg1)) (m ((c : Thread nD τ).loc main_arg2)) :=
  (entry0_meanK m ρ c).trans (meanNeighK_eq _ _ _)

/-! ## Between the regions: the arguments are still as launched -/

theorem mid_src (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

theorem mid_dst (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

theorem mid_wself (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

theorem mid_wneigh (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

theorem mid_bias (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)

/-! ## The second region's entry -/

/-- The second region reads the first region's output untouched. -/
theorem entry1_feat (c : Dev nD) : V3 m ρ c main_v20 = W2 m ρ c (Proc.devRef .tc main_v20) := by
  show StableHlo.after hostOps1 (W2 m ρ c) (Proc.devRef .tc main_v20) = _
  after_results

theorem entry1_wself (c : Dev nD) : V3 m ρ c main_arg6 = m ((c : Thread nD τ).loc main_arg6) := by
  refine Eq.trans ?_ (mid_wself m ρ c)
  show StableHlo.after hostOps1 (W2 m ρ c) (Proc.devRef .tc main_arg6) = _
  after_results

theorem entry1_wneigh (c : Dev nD) : V3 m ρ c main_arg7 = m ((c : Thread nD τ).loc main_arg7) := by
  refine Eq.trans ?_ (mid_wneigh m ρ c)
  show StableHlo.after hostOps1 (W2 m ρ c) (Proc.devRef .tc main_arg7) = _
  after_results

set_option maxHeartbeats 8000000 in
/-- The means the second region reads are the aggregation of the first region's output over the launched edges. -/
theorem entry1_mean (c : Dev nD) :
    V3 m ρ c main_v39 = Cert.Sage.meanNeigh (W2 m ρ c (Proc.devRef .tc main_v20)) (m ((c : Thread nD τ).loc main_arg1)) (m ((c : Thread nD τ).loc main_arg2)) := by
  have e : V3 m ρ c main_v39 = meanNeighK (W2 m ρ c (Proc.devRef .tc main_v20)) (W2 m ρ c (Proc.devRef .tc main_arg1)) (W2 m ρ c (Proc.devRef .tc main_arg2)) := by
    show StableHlo.after hostOps1 (W2 m ρ c) (Proc.devRef .tc main_v39) = _
    after_results_simp
    rfl
  rw [e, mid_src, mid_dst]
  exact meanNeighK_eq _ _ _

set_option maxHeartbeats 8000000 in
/-- The bias row the second region reads is the launched second bias vector laid out as one row. -/
theorem entry1_bias (c : Dev nD) :
    V3 m ρ c main_v40 = shapeCast S1x128 (m ((c : Thread nD τ).loc main_arg8)) shapeCasts_S128_S1x128 := by
  have e : V3 m ρ c main_v40 = shapeCast S1x128 (W2 m ρ c (Proc.devRef .tc main_arg8)) shapeCasts_S128_S1x128 := by
    show StableHlo.after hostOps1 (W2 m ρ c) (Proc.devRef .tc main_v40) = _
    after_results_simp
    rfl
  rw [e, mid_bias]

end Cert.SageHost

end
-- ==== Proof.SageTile.lean ====
/-
  What one tile of the blocked combination computes, entry by entry. A tile holds 5000 consecutive node rows; from the
  tile's rows `x` of the features and `nb` of the neighbourhood means, the two whole 128 × 128 weight matrices and the
  bias as a single row, the matrix unit forms `x · ws` and `nb · wn` into zero accumulators, the two are added, and the
  bias row is added to every row. Over the extended reals the narrowing of the operands to 16 bits is the identity, so at
  row `p` and column `q` of the tile the result is
  `(∑ k, x[p,k] · ws[k,q] + ∑ k, nb[p,k] · wn[k,q]) + b[0,q]` (`tileAt`); the first layer's tile is the larger of
  that and zero.
-/
import proofs.«163017_j13615046328531_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.SageTile

open Cert.KernelIdeal Cert.KernelIdeal.Gen Idealize.ShloMosaic Idealize.ShloMosaic.TcCoe Idealize.ShloMosaic.ValueIdx

/-- Row `p`, column `k` of a tile, `p` the row of `y`. -/
abbrev tRow (y : S5000x128.Idx) (k : Fin 128) : S5000x128.Idx := fun a => match a with
  | ⟨0, _⟩ => ⟨(y 0).val, (y 0).isLt⟩
  | ⟨1, _⟩ => ⟨k.val, k.isLt⟩
/-- Row `k`, column `q` of a weight matrix, `q` the column of `y`. -/
abbrev tCol (y : S5000x128.Idx) (k : Fin 128) : S128x128.Idx := fun a => match a with
  | ⟨0, _⟩ => ⟨k.val, k.isLt⟩
  | ⟨1, _⟩ => ⟨(y 1).val, (y 1).isLt⟩
/-- Column `q` of the bias row, `q` the column of `y`. -/
abbrev tBias (y : S5000x128.Idx) : S1x128.Idx := fun a => match a with
  | ⟨0, _⟩ => ⟨0, Nat.one_pos⟩
  | ⟨1, _⟩ => ⟨(y 1).val, (y 1).isLt⟩

/-- The tile's left operand index keeps the output row. -/
theorem lhs_tile_0 (y : S5000x128.Idx) (q : dot_S5000x128_S128x128_S5000x128_1_0_0_1_n_n.contr.Idx) :
    (dot_S5000x128_S128x128_S5000x128_1_0_0_1_n_n.lhsIdx y q 0).val = (y 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the summation index. -/
theorem lhs_tile_1 (y : S5000x128.Idx) (q : dot_S5000x128_S128x128_S5000x128_1_0_0_1_n_n.contr.Idx) :
    (dot_S5000x128_S128x128_S5000x128_1_0_0_1_n_n.lhsIdx y q 1).val = (q ⟨0, by decide⟩).val :=
  dot_S5000x128_S128x128_S5000x128_1_0_0_1_n_n.lhsIdx_val_of_single rfl y q
/-- The right operand's row is the summation index. -/
theorem rhs_tile_0 (y : S5000x128.Idx) (q : dot_S5000x128_S128x128_S5000x128_1_0_0_1_n_n.contr.Idx) :
    (dot_S5000x128_S128x128_S5000x128_1_0_0_1_n_n.rhsIdx y q 0).val = (q ⟨0, by decide⟩).val :=
  dot_S5000x128_S128x128_S5000x128_1_0_0_1_n_n.rhsIdx_val_of_single rfl y q
/-- Its column is the output column. -/
theorem rhs_tile_1 (y : S5000x128.Idx) (q : dot_S5000x128_S128x128_S5000x128_1_0_0_1_n_n.contr.Idx) :
    (dot_S5000x128_S128x128_S5000x128_1_0_0_1_n_n.rhsIdx y q 1).val = (y 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile's matrix product into a zero accumulator, at row `p` and column `q`: `∑ k, x[p,k] · w[k,q]`. -/
theorem matmul_tile_apply {φ₁ φ₂ : FTy} (x : FVec Ideal S5000x128 φ₁) (w : FVec Ideal S128x128 φ₂) (y : S5000x128.Idx) :
    matmul dot_S5000x128_S128x128_S5000x128_1_0_0_1_n_n none x w (constant S5000x128 .f32 0x00000000#32) y
      = ∑ k : Fin 128, x (tRow y k) * w (tCol y k) := by
  show FloatOps.matmul dot_S5000x128_S128x128_S5000x128_1_0_0_1_n_n none x w (constant S5000x128 .f32 0x00000000#32) y = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = tRow y k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx y ((ValueIdx.contrEquiv1 dot_S5000x128_S128x128_S5000x128_1_0_0_1_n_n 128 rfl rfl).symm k) = tCol y k := funext fun a => Fin.ext (by
    match a with
    | ⟨0, _⟩ => exact (rhs_tile_0 _ _).trans hk
    | ⟨1, _⟩ => exact rhs_tile_1 _ _)
  rw [el, er]

/-- The bias row spread over the tile's rows, at an index: the row's entry in that column. -/
theorem bias_tile_apply (b : FVec Ideal S1x128 .f32) (y : S5000x128.Idx) :
    broadcastTo S5000x128 (shapeCast S1x128 b shapeCasts_S1x128_S1x128) broadcasts_S1x128_S5000x128 y = b (tBias y) := by
  rw [shapeCast_self]
  exact broadcastTo_apply b broadcasts_S1x128_S5000x128 y (tBias y) (fun a => match a with
    | ⟨0, _⟩ => by show 0 = if (1 : Nat) = 1 then 0 else _; rw [if_pos rfl]
    | ⟨1, _⟩ => by show (y 1).val = if (128 : Nat) = 1 then 0 else (y 1).val; rw [if_neg (by decide)])

/-- `(∑ k, x[p,k] · ws[k,q] + ∑ k, nb[p,k] · wn[k,q]) + b[0,q]` at `y = (p, q)` of a tile. -/
def tileAt (x nb : S5000x128.Idx → EReal) (ws wn : S128x128.Idx → EReal) (b : S1x128.Idx → EReal) (y : S5000x128.Idx) : EReal :=
  ((∑ k : Fin 128, x (tRow y k) * ws (tCol y k)) + ∑ k : Fin 128, nb (tRow y k) * wn (tCol y k)) + b (tBias y)

/-- The second layer's tile is `tileAt` of what the body loads. -/
theorem pay_layer1_apply (x nb : Vec Ideal S5000x128 .f32) (ws wn : Vec Ideal S128x128 .f32) (b : Vec Ideal S1x128 .f32) (y : S5000x128.Idx) :
    k1_pay1 (F := Ideal) x nb ws wn b y = tileAt x nb ws wn b y := by
  unfold k1_pay1 tileAt
  rw [addf_apply, addf_apply, matmul_tile_apply, matmul_tile_apply, bias_tile_apply]
  simp only [shapeCast_self]
  rfl

/-- The first layer's tile is the larger of `tileAt` and zero. -/
theorem pay_layer0_apply (x nb : Vec Ideal S5000x128 .f32) (ws wn : Vec Ideal S128x128 .f32) (b : Vec Ideal S1x128 .f32) (y : S5000x128.Idx) :
    k0_pay1 (F := Ideal) x nb ws wn b y = max (tileAt x nb ws wn b y) (Ideal.ofBits .f32 0x00000000#32) := by
  unfold k0_pay1 tileAt
  rw [maximumf_apply, addf_apply, addf_apply, matmul_tile_apply, matmul_tile_apply, bias_tile_apply]
  simp only [shapeCast_self]
  rfl

end Cert.SageTile

end
-- ==== Proof.SageRegion0.lean ====
/-
  What the first blocked combination leaves in its output array, as one function of the arrays it finds. The grid has
  ten points; point `t` stages rows `5000·t … 5000·t + 4999` of the features and of the neighbourhood means, the two
  weight matrices whole and the bias row whole, and writes back the same rows of the output. So the tile's entry
  `(p, q)` at point `t` is the combination at node `5000·t + p` and feature `q` (the sums over the input features
  run over the same rows and columns of the whole arrays), cut at zero; the ten row blocks tile the 50000 rows, so the
  output array ends holding that function everywhere.
-/
import proofs.«163017_j13615046328531_1_alg».proof.Proof.Gen.KernelIdeal.Frame
import proofs.«163017_j13615046328531_1_alg».proof.Proof.SageSpec
import proofs.«163017_j13615046328531_1_alg».proof.Proof.SageTile

noncomputable section

namespace Cert.SageRegion

open Cert.KernelIdeal Cert.KernelIdeal.Gen Idealize.ShloMosaic Idealize.ShloMosaic.TcCoe Idealize.SL.Sem Idealize.ShloMosaic.ValueIdx
open Idealize.ShloMosaic.Pipeline (Dat)
open Cert.SageTile

variable (V : (c : Dev nD) → (b : Ref sig .tc) → Buf (Elt Ideal) ((c : Thread nD τ).loc b))

theorem origin2 : (![0, 0] : Fin 2 → Nat) = fun _ => 0 := funext fun a => by fin_cases a <;> rfl

/-- Column `q` of the one-row bias array, `q` the column of `i`. -/
abbrev rowBias (i : S50000x128.Idx) : S1x128.Idx := fun a => match a with
  | ⟨0, _⟩ => ⟨0, Nat.one_pos⟩
  | ⟨1, _⟩ => ⟨(i 1).val, (i 1).isLt⟩

/-- The first layer over the arrays the region finds: the combination of the features, the means, the two weight
    matrices and the bias row, cut at zero. -/
def first (c : Dev nD) : S50000x128.Idx → EReal := fun i =>
  max (Cert.Sage.affineAt (V c main_arg0) (V c main_v18) (V c main_arg3) (V c main_arg4) (fun i => V c main_v19 (rowBias i)) i)
    (Ideal.ofBits .f32 0x00000000#32)

/-- The printed index maps over the ten points: the two row-blocked inputs move with the output's row block, the
    other three stay at the origin, and the output's row block is the point's number. -/
theorem idx0 : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is rows `5000·t …` of `first`. -/
theorem flushed0 (c : Dev nD) (t : Fin cfg0.N) :
    (dat0 V c).flushed 5 t = ((cfg0.win 5).blk t).view.read (Elt Ideal) (first V c) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x128) origin2, View.ld_unit_zero (S := S1x128) origin2]
  obtain ⟨e00, e01, e10, e11, e20, e21, e30, e31, e40, e41, e50, e51⟩ := idx0 t
  funext y
  show k0_pay1 (F := Ideal) (iblk0 V c 0 t) (iblk0 V c 1 t) (iblk0 V c 2 t) (iblk0 V c 3 t) (iblk0 V c 4 t) y = first V c (((cfg0.win 5).blk t).view.emb y)
  refine (pay_layer0_apply (iblk0 V c 0 t) (iblk0 V c 1 t) (iblk0 V c 2 t) (iblk0 V c 3 t) (iblk0 V c 4 t) y).trans ?_
  unfold first tileAt Cert.Sage.affineAt
  have hx : ∀ k : Fin 128, iblk0 V c 0 t (tRow y k) = V c main_arg0 (Cert.Sage.rowAt (((cfg0.win 5).blk t).view.emb y) k) := fun k => by
    show V c main_arg0 (((cfg0.win 0).blk t).view.emb (tRow y k)) = _
    refine congrArg (V c main_arg0) (funext fun a => Fin.ext ?_)
    match a with
    | ⟨0, _⟩ => show win0_0.index t (0 : Fin 2) * 5000 + 1 * (y 0).val = win0_5.index t (0 : Fin 2) * 5000 + 1 * (y 0).val; rw [e00]
    | ⟨1, _⟩ => show win0_0.index t (1 : Fin 2) * 128 + 1 * k.val = k.val; rw [e01]; omega
  have hn : ∀ k : Fin 128, iblk0 V c 1 t (tRow y k) = V c main_v18 (Cert.Sage.rowAt (((cfg0.win 5).blk t).view.emb y) k) := fun k => by
    show V c main_v18 (((cfg0.win 1).blk t).view.emb (tRow y k)) = _
    refine congrArg (V c main_v18) (funext fun a => Fin.ext ?_)
    match a with
    | ⟨0, _⟩ => show win0_1.index t (0 : Fin 2) * 5000 + 1 * (y 0).val = win0_5.index t (0 : Fin 2) * 5000 + 1 * (y 0).val; rw [e10]
    | ⟨1, _⟩ => show win0_1.index t (1 : Fin 2) * 128 + 1 * k.val = k.val; rw [e11]; omega
  have hws : ∀ k : Fin 128, iblk0 V c 2 t (tCol y k) = V c main_arg3 (Cert.Sage.colAt (((cfg0.win 5).blk t).view.emb y) k) := fun k => by
    show V c main_arg3 (((cfg0.win 2).blk t).view.emb (tCol y k)) = _
    refine congrArg (V c main_arg3) (funext fun a => Fin.ext ?_)
    match a with
    | ⟨0, _⟩ => show win0_2.index t (0 : Fin 2) * 128 + 1 * k.val = k.val; rw [e20]; omega
    | ⟨1, _⟩ => show win0_2.index t (1 : Fin 2) * 128 + 1 * (y 1).val = win0_5.index t (1 : Fin 2) * 128 + 1 * (y 1).val; rw [e21, e51]
  have hwn : ∀ k : Fin 128, iblk0 V c 3 t (tCol y k) = V c main_arg4 (Cert.Sage.colAt (((cfg0.win 5).blk t).view.emb y) k) := fun k => by
    show V c main_arg4 (((cfg0.win 3).blk t).view.emb (tCol y k)) = _
    refine congrArg (V c main_arg4) (funext fun a => Fin.ext ?_)
    match a with
    | ⟨0, _⟩ => show win0_3.index t (0 : Fin 2) * 128 + 1 * k.val = k.val; rw [e30]; omega
    | ⟨1, _⟩ => show win0_3.index t (1 : Fin 2) * 128 + 1 * (y 1).val = win0_5.index t (1 : Fin 2) * 128 + 1 * (y 1).val; rw [e31, e51]
  have hb : iblk0 V c 4 t (tBias y) = V c main_v19 (rowBias (((cfg0.win 5).blk t).view.emb y)) := by
    show V c main_v19 (((cfg0.win 4).blk t).view.emb (tBias y)) = _
    refine congrArg (V c main_v19) (funext fun a => Fin.ext ?_)
    match a with
    | ⟨0, _⟩ => show win0_4.index t (0 : Fin 2) * 1 + 1 * 0 = 0; rw [e40]
    | ⟨1, _⟩ => show win0_4.index t (1 : Fin 2) * 128 + 1 * (y 1).val = win0_5.index t (1 : Fin 2) * 128 + 1 * (y 1).val; rw [e41, e51]
  simp only [hx, hn, hws, hwn, hb]

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- Every node row lies in the block of the point `row / 5000`. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨_, _, _, _, _, _, _, _, _, _, e50, e51⟩ := idx0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; rw [e50, ht]; omega
  | ⟨1, _⟩ => show win0_5.index t (1 : Fin 2) * 128 ≤ (i 1).val ∧ (i 1).val < win0_5.index t (1 : Fin 2) * 128 + 128; rw [e51]; omega

/-- THE OUTPUT ARRAY after the region: the first layer of what the region found. -/
theorem final0 (c : Dev nD) : (dat0 V c).arrAt 5 cfg0.N = first V c :=
  (dat0 V c).arrAt_eq_of_cover 5 (first V c) (fun t _ => flushed0 V c t) cover0

end Cert.SageRegion

end
-- ==== Proof.SageRegion1.lean ====
/-
  What the second blocked combination leaves in its output array, as one function of the arrays it finds. As in the
  first, point `t` of ten stages rows `5000·t … 5000·t + 4999` of the hidden features and of their neighbourhood means,
  the second layer's two weight matrices whole and its bias row whole, and writes back the same rows of the result; there
  is no cut at zero after the last layer. The tile's entry `(p, q)` at point `t` is the combination at node
  `5000·t + p` and feature `q`, and the ten row blocks tile the 50000 rows.
-/
import proofs.«163017_j13615046328531_1_alg».proof.Proof.Gen.KernelIdeal.Frame
import proofs.«163017_j13615046328531_1_alg».proof.Proof.SageSpec
import proofs.«163017_j13615046328531_1_alg».proof.Proof.SageTile

noncomputable section

namespace Cert.SageRegion

open Cert.KernelIdeal Cert.KernelIdeal.Gen Idealize.ShloMosaic Idealize.ShloMosaic.TcCoe Idealize.SL.Sem Idealize.ShloMosaic.ValueIdx
open Idealize.ShloMosaic.Pipeline (Dat)
open Cert.SageTile

variable (V : (c : Dev nD) → (b : Ref sig .tc) → Buf (Elt Ideal) ((c : Thread nD τ).loc b))

theorem origin2' : (![0, 0] : Fin 2 → Nat) = fun _ => 0 := funext fun a => by fin_cases a <;> rfl

/-- Column `q` of the second layer's one-row bias array, `q` the column of `i`. -/
abbrev rowBias' (i : S50000x128.Idx) : S1x128.Idx := fun a => match a with
  | ⟨0, _⟩ => ⟨0, Nat.one_pos⟩
  | ⟨1, _⟩ => ⟨(i 1).val, (i 1).isLt⟩

/-- The second layer over the arrays the region finds: the combination of the hidden features, their means, the two
    weight matrices and the bias row. -/
def second (c : Dev nD) : S50000x128.Idx → EReal := fun i =>
  Cert.Sage.affineAt (V c main_v20) (V c main_v39) (V c main_arg6) (V c main_arg7) (fun i => V c main_v40 (rowBias' i)) i

/-- The printed index maps over the ten points: the two row-blocked inputs move with the output's row block, the
    other three stay at the origin, and the output's row block is the point's number. -/
theorem idx1 : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is rows `5000·t …` of `second`. -/
theorem flushed1 (c : Dev nD) (t : Fin cfg1.N) :
    (dat1 V c).flushed 5 t = ((cfg1.win 5).blk t).view.read (Elt Ideal) (second V c) := by
  show (cfg1.win 5).cut (grid1.coords t) ((dat1 V c).after 5 t) = _
  rw [after1_5]
  unfold out1_5
  rw [View.canon_unit_zero origin2']
  simp only [View.ld_unit_zero (S := S5000x128) origin2', View.ld_unit_zero (S := S128x128) origin2', View.ld_unit_zero (S := S1x128) origin2']
  obtain ⟨e00, e01, e10, e11, e20, e21, e30, e31, e40, e41, e50, e51⟩ := idx1 t
  funext y
  show k1_pay1 (F := Ideal) (iblk1 V c 0 t) (iblk1 V c 1 t) (iblk1 V c 2 t) (iblk1 V c 3 t) (iblk1 V c 4 t) y = second V c (((cfg1.win 5).blk t).view.emb y)
  refine (pay_layer1_apply (iblk1 V c 0 t) (iblk1 V c 1 t) (iblk1 V c 2 t) (iblk1 V c 3 t) (iblk1 V c 4 t) y).trans ?_
  unfold second tileAt Cert.Sage.affineAt
  have hx : ∀ k : Fin 128, iblk1 V c 0 t (tRow y k) = V c main_v20 (Cert.Sage.rowAt (((cfg1.win 5).blk t).view.emb y) k) := fun k => by
    show V c main_v20 (((cfg1.win 0).blk t).view.emb (tRow y k)) = _
    refine congrArg (V c main_v20) (funext fun a => Fin.ext ?_)
    match a with
    | ⟨0, _⟩ => show win1_0.index t (0 : Fin 2) * 5000 + 1 * (y 0).val = win1_5.index t (0 : Fin 2) * 5000 + 1 * (y 0).val; rw [e00]
    | ⟨1, _⟩ => show win1_0.index t (1 : Fin 2) * 128 + 1 * k.val = k.val; rw [e01]; omega
  have hn : ∀ k : Fin 128, iblk1 V c 1 t (tRow y k) = V c main_v39 (Cert.Sage.rowAt (((cfg1.win 5).blk t).view.emb y) k) := fun k => by
    show V c main_v39 (((cfg1.win 1).blk t).view.emb (tRow y k)) = _
    refine congrArg (V c main_v39) (funext fun a => Fin.ext ?_)
    match a with
    | ⟨0, _⟩ => show win1_1.index t (0 : Fin 2) * 5000 + 1 * (y 0).val = win1_5.index t (0 : Fin 2) * 5000 + 1 * (y 0).val; rw [e10]
    | ⟨1, _⟩ => show win1_1.index t (1 : Fin 2) * 128 + 1 * k.val = k.val; rw [e11]; omega
  have hws : ∀ k : Fin 128, iblk1 V c 2 t (tCol y k) = V c main_arg6 (Cert.Sage.colAt (((cfg1.win 5).blk t).view.emb y) k) := fun k => by
    show V c main_arg6 (((cfg1.win 2).blk t).view.emb (tCol y k)) = _
    refine congrArg (V c main_arg6) (funext fun a => Fin.ext ?_)
    match a with
    | ⟨0, _⟩ => show win1_2.index t (0 : Fin 2) * 128 + 1 * k.val = k.val; rw [e20]; omega
    | ⟨1, _⟩ => show win1_2.index t (1 : Fin 2) * 128 + 1 * (y 1).val = win1_5.index t (1 : Fin 2) * 128 + 1 * (y 1).val; rw [e21, e51]
  have hwn : ∀ k : Fin 128, iblk1 V c 3 t (tCol y k) = V c main_arg7 (Cert.Sage.colAt (((cfg1.win 5).blk t).view.emb y) k) := fun k => by
    show V c main_arg7 (((cfg1.win 3).blk t).view.emb (tCol y k)) = _
    refine congrArg (V c main_arg7) (funext fun a => Fin.ext ?_)
    match a with
    | ⟨0, _⟩ => show win1_3.index t (0 : Fin 2) * 128 + 1 * k.val = k.val; rw [e30]; omega
    | ⟨1, _⟩ => show win1_3.index t (1 : Fin 2) * 128 + 1 * (y 1).val = win1_5.index t (1 : Fin 2) * 128 + 1 * (y 1).val; rw [e31, e51]
  have hb : iblk1 V c 4 t (tBias y) = V c main_v40 (rowBias' (((cfg1.win 5).blk t).view.emb y)) := by
    show V c main_v40 (((cfg1.win 4).blk t).view.emb (tBias y)) = _
    refine congrArg (V c main_v40) (funext fun a => Fin.ext ?_)
    match a with
    | ⟨0, _⟩ => show win1_4.index t (0 : Fin 2) * 1 + 1 * 0 = 0; rw [e40]
    | ⟨1, _⟩ => show win1_4.index t (1 : Fin 2) * 128 + 1 * (y 1).val = win1_5.index t (1 : Fin 2) * 128 + 1 * (y 1).val; rw [e41, e51]
  simp only [hx, hn, hws, hwn, hb]

/-- An index of the result array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Every node row lies in the block of the point `row / 5000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨_, _, _, _, _, _, _, _, _, _, e50, e51⟩ := idx1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e50, ht]; omega
  | ⟨1, _⟩ => show win1_5.index t (1 : Fin 2) * 128 ≤ (i 1).val ∧ (i 1).val < win1_5.index t (1 : Fin 2) * 128 + 128; rw [e51]; omega

/-- THE RESULT ARRAY after the region: the second layer of what the region found. -/
theorem final1 (c : Dev nD) : (dat1 V c).arrAt 5 cfg1.N = second V c :=
  (dat1 V c).arrAt_eq_of_cover 5 (second V c) (fun t _ => flushed1 V c t) cover1

end Cert.SageRegion

end
-- ==== Proof.SageLayers.lean ====
/-
  The two regions' outputs as layers of the network. Given what a region finds in its five input arrays (the features,
  their neighbourhood means, the two weight matrices, and the bias vector laid out as one row), the function it leaves
  in its output is the layer's combination of them: the row layout of the bias read at column `q` is the vector's entry
  `q`, the matrix products are the same sums over the input features, and, for the first region, the cut at zero is
  the larger of the entry and the zero constant.
-/
import proofs.«163017_j13615046328531_1_alg».proof.Proof.SageRegion0
import proofs.«163017_j13615046328531_1_alg».proof.Proof.SageRegion1

noncomputable section

namespace Cert.SageRegion

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- A bias vector laid out as one row, read at row 0 and column `q`: its entry `q`. -/
theorem bias_row_apply (b : (⟨S128, .f32⟩ : BufTy).Contents (Elt Ideal)) (i : S50000x128.Idx) :
    shapeCast S1x128 b shapeCasts_S128_S1x128 (rowBias i) = b (Cert.Sage.biasAt i) :=
  (shapeCast_addUnit_apply (n := 1) ![128] b shapeCasts_S128_S1x128 (rowBias i)).trans
    (congrArg b (funext fun a => match a with | ⟨0, _⟩ => rfl))

/-- The same for the second region's spelling of the row index. -/
theorem bias_row_apply' (b : (⟨S128, .f32⟩ : BufTy).Contents (Elt Ideal)) (i : S50000x128.Idx) :
    shapeCast S1x128 b shapeCasts_S128_S1x128 (rowBias' i) = b (Cert.Sage.biasAt i) :=
  (shapeCast_addUnit_apply (n := 1) ![128] b shapeCasts_S128_S1x128 (rowBias' i)).trans
    (congrArg b (funext fun a => match a with | ⟨0, _⟩ => rfl))

/-- The first region leaves the hidden features of what it found. -/
theorem first_eq (c : Dev nD) (h : (⟨S50000x128, .f32⟩ : BufTy).Contents (Elt Ideal)) (src dst : (⟨S600000, .i32⟩ : BufTy).Contents (Elt Ideal))
    (ws wn : (⟨S128x128, .f32⟩ : BufTy).Contents (Elt Ideal)) (b : (⟨S128, .f32⟩ : BufTy).Contents (Elt Ideal))
    (e0 : V c main_arg0 = h) (e1 : V c main_v18 = Cert.Sage.meanNeigh h src dst) (e3 : V c main_arg3 = ws) (e4 : V c main_arg4 = wn)
    (e5 : V c main_v19 = shapeCast S1x128 b shapeCasts_S128_S1x128) :
    first V c = Cert.Sage.hidden h src dst ws wn b := by
  funext i
  unfold first Cert.Sage.hidden Cert.Sage.relu0
  rw [e0, e1, e3, e4, e5, maximumf_apply, Cert.Sage.affine_apply]
  unfold Cert.Sage.affineAt
  dsimp only
  rw [bias_row_apply b i]
  rfl

/-- The second region leaves the combination of what it found. -/
theorem second_eq (c : Dev nD) (hd : (⟨S50000x128, .f32⟩ : BufTy).Contents (Elt Ideal)) (src dst : (⟨S600000, .i32⟩ : BufTy).Contents (Elt Ideal))
    (ws wn : (⟨S128x128, .f32⟩ : BufTy).Contents (Elt Ideal)) (b : (⟨S128, .f32⟩ : BufTy).Contents (Elt Ideal))
    (e0 : V c main_v20 = hd) (e1 : V c main_v39 = Cert.Sage.meanNeigh hd src dst) (e3 : V c main_arg6 = ws) (e4 : V c main_arg7 = wn)
    (e5 : V c main_v40 = shapeCast S1x128 b shapeCasts_S128_S1x128) :
    second V c = Cert.Sage.affine hd (Cert.Sage.meanNeigh hd src dst) ws wn b := by
  funext i
  unfold second
  rw [e0, e1, e3, e4, e5, Cert.Sage.affine_apply]
  unfold Cert.Sage.affineAt
  dsimp only
  rw [bias_row_apply' b i]

end Cert.SageRegion

end
-- ==== Proof.SageKernelValue.lean ====
/-
  The blocked program's result as the network of its nine arguments. The first region finds the launched features,
  their neighbourhood means, the first layer's weights and its bias as a row, and leaves the hidden features; the host
  operations between the regions leave that array untouched and form its neighbourhood means over the same edges; the
  second region finds these, the second layer's weights and its bias as a row, and leaves the second layer of the hidden
  features, which is the network.
-/
import proofs.«163017_j13615046328531_1_alg».proof.Proof.SageHost
import proofs.«163017_j13615046328531_1_alg».proof.Proof.SageLayers

noncomputable section

namespace Cert.SageValue

open Cert.KernelIdeal Cert.KernelIdeal.Gen Idealize.ShloMosaic Idealize.ShloMosaic.TcCoe Idealize.SL.Sem
open Cert.SageHost Cert.SageRegion

variable (m : (ℓ : Loc nD τ sig) → Buf (Elt Ideal) ℓ) (ρ : Dev nD → PrngReg)

/-- After the first region its output array holds the hidden features of the launched arguments. -/
theorem hidden_eq (c : Dev nD) :
    W2 m ρ c (Proc.devRef .tc main_v20)
      = Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 5).trans ((final0 (V1 m ρ) c).trans
    (first_eq (V1 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (entry0_feat m ρ c) (entry0_mean m ρ c) (entry0_wself m ρ c) (entry0_wneigh m ρ c) (entry0_bias m ρ c)))

/-- After the second region the result array holds the network of the launched arguments. -/
theorem result_eq (c : Dev nD) :
    W4 m ρ c (Proc.devRef .tc main_v41)
      = Cert.Sage.twoLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Cert.Sage.twoLayer
  refine (W4_arr m ρ c 5).trans ((final1 (V3 m ρ) c).trans
    (second_eq (V3 m ρ) c (Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))
      ((entry1_feat m ρ c).trans (hidden_eq m ρ c)) ?_ (entry1_wself m ρ c) (entry1_wneigh m ρ c) (entry1_bias m ρ c)))
  rw [entry1_mean, hidden_eq]

end Cert.SageValue

end
-- ==== Proof.lean ====
/-
  A two-layer mean-aggregation graph network, blocked over node rows, against its plain reference, over the extended
  reals. Both programs form the neighbourhood means with the same host operations (a gather of source rows, a sum per
  destination, a division by the in-degree); the blocked program then combines `x · W_self + mean · W_neigh + b` on the
  matrix unit, ten tiles of 5000 node rows per layer, cutting at zero after the first layer, where the reference
  computes the same combinations whole. The frames of the two blocked programs are the generated ones and the
  reference's frame is its generated run; the idealization rewrote nothing. For the value claim the blocked program's
  run is re-posted with its result array named (Proof/KernelRun.lean), each region's output array is read as one function of
  what the region found (Proof/SageRegion0.lean, Proof/SageRegion1.lean: a tile's entry is the layer's combination at
  the tile's node row; the tiles cover the rows), the host stretches are read for what the regions find
  (Proof/SageHost.lean), and the result is the specification's network of the nine arguments
  (Proof/SageKernelValue.lean), which the reference's result term is by its text (Proof/SageSpec.lean). No law of
  arithmetic is needed beyond reading both matrix products as the same sums, so the finiteness of the inputs is not used.
-/
import proofs.«163017_j13615046328531_1_alg».proof.Defs
import proofs.«163017_j13615046328531_1_alg».proof.Proof.Gen.Kernel
import proofs.«163017_j13615046328531_1_alg».proof.Proof.Gen.Kernel.Skeleton
import proofs.«163017_j13615046328531_1_alg».proof.Proof.Gen.Kernel.Launch
import proofs.«163017_j13615046328531_1_alg».proof.Proof.Gen.Kernel.Points
import proofs.«163017_j13615046328531_1_alg».proof.Proof.Gen.Kernel.Frame
import proofs.«163017_j13615046328531_1_alg».proof.Proof.Gen.KernelIdeal
import proofs.«163017_j13615046328531_1_alg».proof.Proof.Gen.KernelIdeal.Skeleton
import proofs.«163017_j13615046328531_1_alg».proof.Proof.Gen.KernelIdeal.Launch
import proofs.«163017_j13615046328531_1_alg».proof.Proof.Gen.KernelIdeal.Points
import proofs.«163017_j13615046328531_1_alg».proof.Proof.Gen.KernelIdeal.Frame
import proofs.«163017_j13615046328531_1_alg».proof.Proof.Gen.ReferenceIdeal
import proofs.«163017_j13615046328531_1_alg».proof.Proof.Gen.Pre_finite_inputs
import proofs.«163017_j13615046328531_1_alg».proof.Proof.Gen.ReferenceIdeal.Run
import proofs.«163017_j13615046328531_1_alg».proof.Proof.Gen.ReferenceIdeal.Read
import proofs.«163017_j13615046328531_1_alg».proof.Proof.SageSpec
import proofs.«163017_j13615046328531_1_alg».proof.Proof.KernelRun
import proofs.«163017_j13615046328531_1_alg».proof.Proof.SageKernelValue
import Idealize.ShloMosaic.Adequacy
import Idealize.ShloMosaic.Init

noncomputable section

namespace Cert.Proof

open Idealize.ShloMosaic Idealize.SL.Sem Cert.Kernel

/-- The word-level program runs and keeps its arguments: the generated frame. -/
theorem frame_k : Cert.frame_Kernel := fun m ρ _ => Cert.Kernel.Gen.frame m ρ

/-- The idealized program runs and keeps its arguments: the generated frame. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the nine arguments in their result arrays. -/
theorem algebraic : Cert.algebraic_KernelIdeal_ReferenceIdeal := by
  intro m ρ m' ρ' _ hagree
  refine ⟨fun c => Cert.Sage.twoLayer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.SageValue.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.Sage.reference_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
